-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S100000x1 : Shape := ⟨2, ![100000, 1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S1200000 : S_.BroadcastsInDim S1200000 (![] : Fin 0 → Fin S1200000.rank)
  reducesTo_S1200000_S_d0 : S1200000.ReducesTo [0] S_

variable [Facts]

def fn_part2 {F : FTy → Type} [FloatOps F] (main_arg2 : IVec S1200000 32) (main_v31 : IVec S_ 1) (main_v32 : IVec S1200000 32) : IVec S_ 1 :=
  let main_v33 : IVec S1200000 1 := cmpi .sge main_arg2 main_v32
  let main_c_13 : IVec S_ 1 := constantI S_ 1 1#1
  let main_v34 : IVec S_ 1 := (fun x v => Host.reduce IntOp.andi x v reducesTo_S1200000_S_d0 h_S_) main_v33 main_c_13
  let main_v35 : IVec S_ 1 := andi main_v31 main_v34
  let main_c_14 : IVec S_ 32 := constantI S_ 32 100000#32
  let main_v36 : IVec S1200000 32 := broadcastInDim S1200000 ![] bcast_S_S1200000 main_c_14
  let main_v37 : IVec S1200000 1 := cmpi .slt main_arg2 main_v36
  let main_c_15 : IVec S_ 1 := constantI S_ 1 1#1
  let main_v38 : IVec S_ 1 := (fun x v => Host.reduce IntOp.andi x v reducesTo_S1200000_S_d0 h_S_) main_v37 main_c_15
  let main_v39 : IVec S_ 1 := andi main_v35 main_v38
  main_v39

def fn_part1 {F : FTy → Type} [FloatOps F] (main_arg1 : IVec S1200000 32) (main_arg2 : IVec S1200000 32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S1200000 32 := broadcastInDim S1200000 ![] bcast_S_S1200000 main_c_8
  let main_v25 : IVec S1200000 1 := cmpi .sge main_arg1 main_v24
  let main_c_9 : IVec S_ 1 := constantI S_ 1 1#1
  let main_v26 : IVec S_ 1 := (fun x v => Host.reduce IntOp.andi x v reducesTo_S1200000_S_d0 h_S_) main_v25 main_c_9
  let main_v27 : IVec S_ 1 := andi main_v23 main_v26
  let main_c_10 : IVec S_ 32 := constantI S_ 32 100000#32
  let main_v28 : IVec S1200000 32 := broadcastInDim S1200000 ![] bcast_S_S1200000 main_c_10
  let main_v29 : IVec S1200000 1 := cmpi .slt main_arg1 main_v28
  let main_c_11 : IVec S_ 1 := constantI S_ 1 1#1
  let main_v30 : IVec S_ 1 := (fun x v => Host.reduce IntOp.andi x v reducesTo_S1200000_S_d0 h_S_) main_v29 main_c_11
  let main_v31 : IVec S_ 1 := andi main_v27 main_v30
  let main_c_12 : IVec S_ 32 := constantI S_ 32 0#32
  let main_v32 : IVec S1200000 32 := broadcastInDim S1200000 ![] bcast_S_S1200000 main_c_12
  fn_part2 (F := F) main_arg2 main_v31 main_v32

def fn {F : FTy → Type} [FloatOps F] (main_arg0 : FVec F S100000x64 .f32) (main_arg1 : IVec S1200000 32) (main_arg2 : IVec S1200000 32) (main_arg3 : FVec F S100000x1 .f32) (main_arg4 : FVec F S100000x1 .f32) (main_arg5 : FVec F S64x64 .f32) (main_arg6 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_v13 main_v16
-- ==== Kernel.lean ====
abbrev S100000x64 : Shape := ⟨2, ![100000, 64]⟩
abbrev S1200000 : Shape := ⟨1, ![1200000]⟩
abbrev S100000x1 : Shape := ⟨2, ![100000, 1]⟩
abbrev S64x64 : Shape := ⟨2, ![64, 64]⟩
abbrev S_ : Shape := ⟨0, ![]⟩
abbrev S1200000x1 : Shape := ⟨2, ![1200000, 1]⟩
abbrev S1200000x64 : Shape := ⟨2, ![1200000, 64]⟩
abbrev S10000x64 : Shape := ⟨2, ![10000, 64]⟩
abbrev S10000x1 : Shape := ⟨2, ![10000, 1]⟩

abbrev nBuf : Space → Nat
  | .hbm => 36
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S100000x1, .f32⟩
  | .hbm, ⟨4, _⟩ => ⟨S100000x1, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S_, .f32⟩
  | .hbm, ⟨17, _⟩ => ⟨S100000x64, .f32⟩
  | .hbm, ⟨18, _⟩ => ⟨S1200000x1, .i32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x64, .f32⟩
  | .hbm, ⟨35, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S10000x1, .f32⟩
  | .local _ .vmem, ⟨7, _⟩ => ⟨S10000x1, .f32⟩
  | .local _ .vmem, ⟨8, _⟩ => ⟨S64x64, .f32⟩
  | .local _ .vmem, ⟨9, _⟩ => ⟨S64x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1200000 : Shape := ⟨1, ![1200000]⟩
abbrev S100000x1 : Shape := ⟨2, ![100000, 1]⟩
abbrev S64x64 : Shape := ⟨2, ![64, 64]⟩
abbrev S_ : Shape := ⟨0, ![]⟩
abbrev S1200000x1 : Shape := ⟨2, ![1200000, 1]⟩
abbrev S1200000x64 : Shape := ⟨2, ![1200000, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S100000x1, .f32⟩
  | .hbm, ⟨4, _⟩ => ⟨S100000x1, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S100000x1_S100000x64_0_1 : S100000x1.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The node-wise output of a two-direction graph convolution, as a function of aggregated node features.

  For node features `x` (an [N, 64] array), an edge list given by two index vectors, two per-node scales `n`, `nt` and two
  64 × 64 weight matrices `wo`, `wb`, the layer returns, at node `r` and channel `c`,

      ∑ₖ (n r · a r k) · wo k c  +  ∑ₖ (nt r · b r k) · wb k c,

  where `a` is `x` plus, at every node, the features of the nodes that send it an edge, and `b` is the same with every
  edge reversed. `combine` is that formula for given `a` and `b`.

  Two facts about how `a` and `b` are formed are proved here too.
  • Accumulating the edge contributions ONTO `x` is the same as accumulating them onto zero and adding `x` afterwards:
    at each entry both are `x` plus the sum of the contributions that land there, and on the extended reals addition
    is commutative with `0` neutral. Nothing has to be finite for this.
  • An index that is not negative is its own wrapped form `i < 0 ? i + N : i`.
-/
import Idealize.ShloMosaic.Lib.ValueIdx
import Idealize.ShloMosaic.Lib.Affine
import Idealize.ShloMosaic.PureOps.Ideal
import Idealize.ShloMosaic.PureOps.Ideal.Laws
import Idealize.ShloMosaic.PureOps.Contract

noncomputable section

namespace Cert.BiConv

open Idealize.ShloMosaic Idealize.ShloMosaic.ValueIdx

/-- Node features and aggregated features: 100000 nodes, 64 channels. -/
abbrev Nodes : Shape := ⟨2, ![100000, 64]⟩
/-- A per-node scale, kept as a column. -/
abbrev NodeCol : Shape := ⟨2, ![100000, 1]⟩
/-- A weight matrix. -/
abbrev Weights : Shape := ⟨2, ![64, 64]⟩
/-- One endpoint per edge: 1200000 edges. -/
abbrev Edges : Shape := ⟨1, ![1200000]⟩
/-- A scalar. -/
abbrev Scalar0 : Shape := ⟨0, ![]⟩

/-- The layer's output from the two aggregated arrays: at node `r`, channel `c`,
    `∑ₖ (n r · a r k) · wo k c + ∑ₖ (nt r · b r k) · wb k c`. -/
def combine (a b : Nodes.Idx → EReal) (n nt : NodeCol.Idx → EReal) (wo wb : Weights.Idx → EReal) : Nodes.Idx → EReal :=
  fun i => (∑ k : Fin 64, (n (ix2 (i 0) (0 : Fin 1)) * a (ix2 (i 0) k)) * wo (ix2 k (i 1)))
    + ∑ k : Fin 64, (nt (ix2 (i 0) (0 : Fin 1)) * b (ix2 (i 0) k)) * wb (ix2 k (i 1))

/-- `combine` at explicit coordinates. -/
theorem combine_apply (a b : Nodes.Idx → EReal) (n nt : NodeCol.Idx → EReal) (wo wb : Weights.Idx → EReal)
    (r : Fin 100000) (c : Fin 64) :
    combine a b n nt wo wb (ix2 r c)
      = (∑ k : Fin 64, (n (ix2 r (0 : Fin 1)) * a (ix2 r k)) * wo (ix2 k c))
        + ∑ k : Fin 64, (nt (ix2 r (0 : Fin 1)) * b (ix2 r k)) * wb (ix2 k c) := rfl

/-- `combine` of equal arrays is equal. -/
theorem combine_congr {a a' b b' : Nodes.Idx → EReal} {n n' nt nt' : NodeCol.Idx → EReal} {wo wo' wb wb' : Weights.Idx → EReal}
    (ha : a = a') (hb : b = b') (hn : n = n') (hnt : nt = nt') (hwo : wo = wo') (hwb : wb = wb') :
    combine a b n nt wo wb = combine a' b' n' nt' wo' wb' := by
  subst ha hb hn hnt hwo hwb; rfl

/-- Accumulating updates onto zero and then adding `x` is accumulating them onto `x`: entry by entry both are `x` plus
    the sum of the updates that land on the entry. -/
theorem scatterAdd_onto_zero_add {s si u : Shape} {w : Nat} (d : ScatterDims s si u)
    (h0 : Scalar0.BroadcastsInDim s (![] : Fin 0 → Fin s.rank))
    (x : FVec Ideal s .f32) (idx : IVec si w) (upd : FVec Ideal u .f32) :
    addf (Host.scatterAdd d (broadcastInDim s ![] h0 (constant (F := Ideal) Scalar0 .f32 0x00000000#32)) idx upd) x
      = Host.scatterAdd d x idx upd := by
  funext i
  show (Ideal.ofBits .f32 0x00000000#32 + ∑ j ∈ Finset.univ.filter (fun j => d.resultIdx? j idx = some i), upd j) + x i
    = x i + ∑ j ∈ Finset.univ.filter (fun j => d.resultIdx? j idx = some i), upd j
  rw [Ideal.ofBits_zero_f32, zero_add, add_comm]

/-- Wrapping negative indices (`i < 0 ? i + N : i`) changes nothing when no index is negative. -/
theorem wrap_of_nonneg (a : IVec Edges 32) (hb : Scalar0.BroadcastsInDim Edges (![] : Fin 0 → Fin Edges.rank)) (N : BitVec 32)
    (h : ∀ e, IntOp.cmpi .sge (a e) 0#32 = 1#1) :
    select (cmpi .slt a (broadcastInDim Edges ![] hb (constantI Scalar0 32 0#32)))
      (addi a (broadcastInDim Edges ![] hb (constantI Scalar0 32 N))) a = a := by
  funext e
  show Scalar.select (IntOp.cmpi .slt (a e) 0#32) _ (a e) = a e
  have hn : ¬ IntOp.cmpi .slt (a e) 0#32 = 1#1 := by
    rw [IntOp.cmpi_slt]
    have := IntOp.cmpi_sge.1 (h e)
    omega
  exact if_neg hn

end Cert.BiConv

end
-- ==== Proof.Domain.lean ====
/-
  What the stated domain says of the two index vectors: every edge endpoint is a node number, `0 ≤ i < 100000`.

  The domain is printed as one conjunction, the last four conjuncts being "all of `x1 ≥ 0`", "all of `x1 < 100000`",
  "all of `x2 ≥ 0`", "all of `x2 < 100000`", each a reduction by `and` of an entry-wise comparison. A conjunction that is
  `1` has every conjunct `1`, and a reduction by `and` that is `1` met only `1`s; so each entry of either vector compares
  not-less-than zero. Only that half of the range is used by the proof: an index at or above the number of nodes is
  treated alike by both programs.
-/
import proofs.«141852_j12094627906069_1_alg».proof.Pre_finite_inputs
import proofs.«141852_j12094627906069_1_alg».proof.Proof.Gen.Pre_finite_inputs
import Idealize.ShloMosaic.Lib.ReduceAll
import Idealize.ShloMosaic.Lib.ValueIdx

namespace Cert.BiConv.Domain

open Idealize.ShloMosaic Cert.Pre_finite_inputs

/-- A scalar has one index. -/
instance : Subsingleton S_.Idx := ⟨fun _ _ => funext fun d => d.elim0⟩

/-- Under the stated domain no entry of either index vector is negative. -/
theorem nonneg_of_pre {F : FTy → Type} [FloatOps F] (x0 : FVec F S100000x64 .f32) (x1 x2 : IVec S1200000 32)
    (x3 x4 : FVec F S100000x1 .f32) (x5 x6 : FVec F S64x64 .f32)
    (h : fn (F := F) x0 x1 x2 x3 x4 x5 x6 = fun _ => 1#1) :
    (∀ e, IntOp.cmpi .sge (x1 e) 0#32 = 1#1) ∧ (∀ e, IntOp.cmpi .sge (x2 e) 0#32 = 1#1) := by
  have h0 := congrFun h ValueIdx.ix0
  dsimp only [fn, fn_part1, fn_part2] at h0
  obtain ⟨h1, -⟩ := IntOp.andi_eq_one.1 h0
  obtain ⟨h2, ht⟩ := IntOp.andi_eq_one.1 h1
  obtain ⟨h3, -⟩ := IntOp.andi_eq_one.1 h2
  obtain ⟨-, hs⟩ := IntOp.andi_eq_one.1 h3
  exact ⟨fun e => Host.reduce_andi_all _ _ _ _ _ hs e, fun e => Host.reduce_andi_all _ _ _ _ _ ht e⟩

end Cert.BiConv.Domain
-- ==== Proof.Prelude.lean ====
/-
  The two arrays the kernel's region is launched on that the program itself computes.

  Before the region the program forms, for each direction, the features gathered along the edges (at the wrapped
  "from" endpoints), accumulates them at the "to" endpoints onto an array of zeros, and adds the node features:
  `aggregate x from to`. The first operand of the region is that with (from, to) = (second input, third input), the
  second with the two swapped; the other four operands are inputs, which nothing before the region writes.
-/
import proofs.«141852_j12094627906069_1_alg».proof.Proof.Gen.KernelIdeal.Frame
import Idealize.ShloMosaic.Lib.StableHlo.Run
import Idealize.ShloMosaic.PureOps.Ideal

set_option maxRecDepth 16384

noncomputable section

namespace Cert.BiConv.Prelude

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- An index vector with its negative entries wrapped: `i < 0 ? i + 100000 : i`. -/
abbrev wrapped (a : IVec S1200000 32) : IVec S1200000 32 :=
  select (cmpi .slt a (broadcastInDim S1200000 ![] bcast_S_S1200000 (constantI S_ 32 0#32)))
    (addi a (broadcastInDim S1200000 ![] bcast_S_S1200000 (constantI S_ 32 100000#32))) a

/-- Features gathered at the wrapped `from` endpoints, accumulated at the `to` endpoints onto zeros, plus the features. -/
abbrev aggregate (x : FVec Ideal S100000x64 .f32) (from_ to_ : IVec S1200000 32) : FVec Ideal S100000x64 .f32 :=
  addf (Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 to_)
      (Host.gather gather_S100000x64_S1200000x1_S1200000x64_1_0_n_n_0_1_164 x
        (broadcastInDim S1200000x1 ![0] bcast_S1200000_S1200000x1_0 (wrapped from_))))
    x

set_option maxHeartbeats 2000000 in
/-- The region's first operand. -/
theorem agg_out_eq (c : Dev nD) :
    (V m c main_v10 : S100000x64.Idx → EReal)
      = aggregate (m ((c : Thread nD τ).loc main_arg0)) (m ((c : Thread nD τ).loc main_arg1)) (m ((c : Thread nD τ).loc main_arg2)) := by
  show StableHlo.after hostOps0 (fun b => m (c, b)) (Proc.devRef .tc main_v10) = _
  after_results_simp <;> rfl

set_option maxHeartbeats 2000000 in
/-- The region's second operand: the same with the two endpoints swapped. -/
theorem agg_back_eq (c : Dev nD) :
    (V m c main_v21 : S100000x64.Idx → EReal)
      = aggregate (m ((c : Thread nD τ).loc main_arg0)) (m ((c : Thread nD τ).loc main_arg2)) (m ((c : Thread nD τ).loc main_arg1)) := by
  show StableHlo.after hostOps0 (fun b => m (c, b)) (Proc.devRef .tc main_v21) = _
  after_results_simp <;> rfl

end Cert.BiConv.Prelude

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Payload.lean ====
/-
  What the kernel body stores at row `p`, column `q` of its 10000-row output block, on the extended reals.

  The body scales each row of its two aggregated-feature blocks by that row's entry of a one-column block, rounds to a
  narrower format (the identity on the extended reals), multiplies by the two weight matrices into zero accumulators, and
  adds the two products. A matrix product into a zero accumulator is, entry by entry, the sum over the 64 shared
  coordinates of the products of entries; so the stored entry is

      ∑ₖ (n p · a p k) · wo k q  +  ∑ₖ (nt p · b p k) · wb k q

  with `a`, `b` the two feature blocks, `n`, `nt` the two scale columns and `wo`, `wb` the weights.
-/
import proofs.«141852_j12094627906069_1_alg».proof.Proof.Gen.KernelIdeal.Skeleton
import proofs.«141852_j12094627906069_1_alg».proof.Proof.LibKeepdims
import proofs.«141852_j12094627906069_1_alg».proof.Proof.Spec
import Idealize.ShloMosaic.Lib.Pipeline.Value
import Idealize.ShloMosaic.Lib.ValueIdx
import Idealize.ShloMosaic.PureOps.Ideal.Laws

noncomputable section

namespace Cert.BiConv.Block

open Idealize.ShloMosaic Idealize.ShloMosaic.ValueIdx Cert.KernelIdeal Cert.KernelIdeal.Gen

/-! ## The block's matrix product read at an entry -/

/-- The left operand is read at the result's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the shared coordinate; -/
theorem lhs_shared (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the shared coordinate … -/
theorem rhs_shared (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the result's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000, 64] by [64, 64] product into a zero accumulator, at `(p, q)`: `∑ₖ l p k · r k q`. -/
theorem matmul_zero_apply {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  show FloatOps.matmul dot_S10000x64_S64x64_S10000x64_1_0_0_1_n_n none l r (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_shared _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_shared _ _).trans hk
    | ⟨1, _⟩ => exact rhs_col _ _)
  rw [el, er]

/-! ## The stored entry -/

/-- The body's stored value at `(p, q)`, from the six loaded blocks. -/
theorem pay_apply (a b : Vec Ideal S10000x64 .f32) (n nt : Vec Ideal S10000x1 .f32) (wo wb : Vec Ideal S64x64 .f32)
    (p : Fin 10000) (q : Fin 64) :
    k0_pay1 (F := Ideal) a b n nt wo wb (ix2 p q)
      = (∑ k : Fin 64, (n (ix2 p (0 : Fin 1)) * a (ix2 p k)) * wo (ix2 k q))
        + ∑ k : Fin 64, (nt (ix2 p (0 : Fin 1)) * b (ix2 p k)) * wb (ix2 k q) := by
  unfold k0_pay1
  rw [shapeCast_self, shapeCast_self, addf_apply, matmul_zero_apply, matmul_zero_apply]
  congr 1 <;> refine Finset.sum_congr rfl fun k _ => ?_
  · show (broadcastTo S10000x64 n broadcasts_S10000x1_S10000x64 (ix2 p k) * a (ix2 p k)) * wo (ix2 k q) = _
    rw [Cert.Keepdims.broadcastTo_a1_ab_apply]
  · show (broadcastTo S10000x64 nt broadcasts_S10000x1_S10000x64 (ix2 p k) * b (ix2 p k)) * wb (ix2 k q) = _
    rw [Cert.Keepdims.broadcastTo_a1_ab_apply]

/-- The stored entry as an entry of `combine`: if row `p` of each row-blocked operand is row `r` of an array, and the
    weight blocks are the weight arrays, the body stores at `(p, q)` what `combine` of the arrays holds at `(r, q)`. -/
theorem pay_eq_combine (A B : Cert.BiConv.Nodes.Idx → EReal) (N NT : Cert.BiConv.NodeCol.Idx → EReal)
    (WO WB : Cert.BiConv.Weights.Idx → EReal)
    (a b : Vec Ideal S10000x64 .f32) (n nt : Vec Ideal S10000x1 .f32) (wo wb : Vec Ideal S64x64 .f32)
    (r : Fin 100000) (p : Fin 10000) (q : Fin 64)
    (ha : ∀ k : Fin 64, a (ix2 p k) = A (ix2 r k)) (hb : ∀ k : Fin 64, b (ix2 p k) = B (ix2 r k))
    (hn : n (ix2 p (0 : Fin 1)) = N (ix2 r (0 : Fin 1))) (hnt : nt (ix2 p (0 : Fin 1)) = NT (ix2 r (0 : Fin 1)))
    (hwo : ∀ k : Fin 64, wo (ix2 k q) = WO (ix2 k q)) (hwb : ∀ k : Fin 64, wb (ix2 k q) = WB (ix2 k q)) :
    k0_pay1 (F := Ideal) a b n nt wo wb (ix2 p q) = Cert.BiConv.combine A B N NT WO WB (ix2 r q) := by
  rw [pay_apply, Cert.BiConv.combine_apply]
  congr 1 <;> refine Finset.sum_congr rfl fun k _ => ?_
  · rw [hn, ha k, hwo k]
  · rw [hnt, hb k, hwb k]

end Cert.BiConv.Block

end
-- ==== Proof.Region.lean ====
/-
  From the blocks each grid point writes to the whole output array.

  The grid has ten points; point `t` reads rows `10000·t … 10000·t + 9999` of the two aggregated arrays and of the two
  scale columns, the whole of both weight matrices, and writes the same rows of the output. By the body's stored entry
  (Payload.lean) what it writes at row `p` of its block is `combine` of those arrays at row `10000·t + p`: each block's
  entry at `(p, k)` IS the array's entry at `(10000·t + p, k)`. The ten row ranges tile the 100000 rows (row `r` is in
  the block of point `r / 10000`), so the output array ends holding `combine` of the arrays the kernel was launched on.
-/
import proofs.«141852_j12094627906069_1_alg».proof.Proof.Gen.KernelIdeal.Value
import proofs.«141852_j12094627906069_1_alg».proof.Proof.Payload
import proofs.«141852_j12094627906069_1_alg».proof.Proof.Spec

set_option maxRecDepth 16384

noncomputable section

namespace Cert.BiConv.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What the output array ends holding: `combine` of the six arrays as the kernel finds them. -/
abbrev result (c : Dev nD) : S100000x64.Idx → EReal :=
  Cert.BiConv.combine (V m c main_v10) (V m c main_v21) (V m c main_arg3) (V m c main_arg4) (V m c main_arg5) (V m c main_arg6)

/-- The index maps over the ten points: the four row-blocked inputs move with the output's row block, the weights stay
    at block (0, 0), and the output's row block is below 10. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) < 10 ∧ win0_6.index t (1 : Fin 2) = 0 :=
  (by decide +kernel : ∀ t : Fin grid0.N, _)

/-- Every row block is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- The stored entry at `(p, q)` of point `t`'s block, for ANY contents `W` of the core's arrays: with each operand
    block read off its array through the point's window, it is `combine` of the six arrays at the entry of the output
    array that `(p, q)` of the output block is. -/
theorem block_entry (c : Dev nD) (W : (b : Ref sig .tc) → Buf (Elt Ideal) ((c : Thread nD τ).loc b)) (t : Fin cfg0.N)
    (p : Fin 10000) (q : Fin 64) :
    k0_pay1 (F := Ideal) (((cfg0.win 0).blk t).view.read (Elt Ideal) (W (Pipeline.arrRef spec0 0))) (((cfg0.win 1).blk t).view.read (Elt Ideal) (W (Pipeline.arrRef spec0 1)))
        (((cfg0.win 2).blk t).view.read (Elt Ideal) (W (Pipeline.arrRef spec0 2))) (((cfg0.win 3).blk t).view.read (Elt Ideal) (W (Pipeline.arrRef spec0 3)))
        (((cfg0.win 4).blk t).view.read (Elt Ideal) (W (Pipeline.arrRef spec0 4))) (((cfg0.win 5).blk t).view.read (Elt Ideal) (W (Pipeline.arrRef spec0 5))) (ix2 p q)
      = Cert.BiConv.combine (W main_v10) (W main_v21) (W main_arg3) (W main_arg4) (W main_arg5) (W main_arg6)
          (((cfg0.win 6).blk t).view.emb (ix2 p q)) := by
  obtain ⟨e00, e01, e10, e11, e20, e21, e30, e31, e40, e41, e50, e51, e6lt, e61⟩ := idx_facts t
  have hp : p.val < 10000 := p.isLt
  have hr : win0_6.index t (0 : Fin 2) * 10000 + p.val < 100000 := by omega
  have h6 : ((cfg0.win 6).blk t).view.emb (ix2 p q) = ix2 (⟨win0_6.index t (0 : Fin 2) * 10000 + p.val, hr⟩ : Fin 100000) q := by
    funext a; apply Fin.ext
    match a with
    | ⟨0, _⟩ => show win0_6.index t (0 : Fin 2) * 10000 + 1 * p.val = win0_6.index t (0 : Fin 2) * 10000 + p.val; omega
    | ⟨1, _⟩ => show win0_6.index t (1 : Fin 2) * 64 + 1 * q.val = q.val; omega
  have h0 : ∀ k : Fin 64, ((cfg0.win 0).blk t).view.emb (ix2 p k) = ix2 (⟨win0_6.index t (0 : Fin 2) * 10000 + p.val, hr⟩ : Fin 100000) k := by
    intro k
    funext a; apply Fin.ext
    match a with
    | ⟨0, _⟩ => show win0_0.index t (0 : Fin 2) * 10000 + 1 * p.val = win0_6.index t (0 : Fin 2) * 10000 + p.val; omega
    | ⟨1, _⟩ => show win0_0.index t (1 : Fin 2) * 64 + 1 * k.val = k.val; omega
  have h1 : ∀ k : Fin 64, ((cfg0.win 1).blk t).view.emb (ix2 p k) = ix2 (⟨win0_6.index t (0 : Fin 2) * 10000 + p.val, hr⟩ : Fin 100000) k := by
    intro k
    funext a; apply Fin.ext
    match a with
    | ⟨0, _⟩ => show win0_1.index t (0 : Fin 2) * 10000 + 1 * p.val = win0_6.index t (0 : Fin 2) * 10000 + p.val; omega
    | ⟨1, _⟩ => show win0_1.index t (1 : Fin 2) * 64 + 1 * k.val = k.val; omega
  have h2 : ((cfg0.win 2).blk t).view.emb (ix2 p (0 : Fin 1)) = ix2 (⟨win0_6.index t (0 : Fin 2) * 10000 + p.val, hr⟩ : Fin 100000) (0 : Fin 1) := by
    funext a; apply Fin.ext
    match a with
    | ⟨0, _⟩ => show win0_2.index t (0 : Fin 2) * 10000 + 1 * p.val = win0_6.index t (0 : Fin 2) * 10000 + p.val; omega
    | ⟨1, _⟩ => show win0_2.index t (1 : Fin 2) * 1 + 1 * (0 : Fin 1).val = (0 : Fin 1).val; omega
  have h3 : ((cfg0.win 3).blk t).view.emb (ix2 p (0 : Fin 1)) = ix2 (⟨win0_6.index t (0 : Fin 2) * 10000 + p.val, hr⟩ : Fin 100000) (0 : Fin 1) := by
    funext a; apply Fin.ext
    match a with
    | ⟨0, _⟩ => show win0_3.index t (0 : Fin 2) * 10000 + 1 * p.val = win0_6.index t (0 : Fin 2) * 10000 + p.val; omega
    | ⟨1, _⟩ => show win0_3.index t (1 : Fin 2) * 1 + 1 * (0 : Fin 1).val = (0 : Fin 1).val; omega
  have h4 : ∀ k : Fin 64, ((cfg0.win 4).blk t).view.emb (ix2 k q) = ix2 k q := by
    intro k
    funext a; apply Fin.ext
    match a with
    | ⟨0, _⟩ => show win0_4.index t (0 : Fin 2) * 64 + 1 * k.val = k.val; omega
    | ⟨1, _⟩ => show win0_4.index t (1 : Fin 2) * 64 + 1 * q.val = q.val; omega
  have h5 : ∀ k : Fin 64, ((cfg0.win 5).blk t).view.emb (ix2 k q) = ix2 k q := by
    intro k
    funext a; apply Fin.ext
    match a with
    | ⟨0, _⟩ => show win0_5.index t (0 : Fin 2) * 64 + 1 * k.val = k.val; omega
    | ⟨1, _⟩ => show win0_5.index t (1 : Fin 2) * 64 + 1 * q.val = q.val; omega
  refine (Cert.BiConv.Block.pay_eq_combine (W main_v10) (W main_v21) (W main_arg3) (W main_arg4) (W main_arg5) (W main_arg6)
    (((cfg0.win 0).blk t).view.read (Elt Ideal) (W (Pipeline.arrRef spec0 0))) (((cfg0.win 1).blk t).view.read (Elt Ideal) (W (Pipeline.arrRef spec0 1)))
    (((cfg0.win 2).blk t).view.read (Elt Ideal) (W (Pipeline.arrRef spec0 2))) (((cfg0.win 3).blk t).view.read (Elt Ideal) (W (Pipeline.arrRef spec0 3)))
    (((cfg0.win 4).blk t).view.read (Elt Ideal) (W (Pipeline.arrRef spec0 4))) (((cfg0.win 5).blk t).view.read (Elt Ideal) (W (Pipeline.arrRef spec0 5))) (⟨win0_6.index t (0 : Fin 2) * 10000 + p.val, hr⟩ : Fin 100000) p q
    (fun k => congrArg (W main_v10) (h0 k)) (fun k => congrArg (W main_v21) (h1 k))
    (congrArg (W main_arg3) h2) (congrArg (W main_arg4) h3)
    (fun k => congrArg (W main_arg5) (h4 k)) (fun k => congrArg (W main_arg6) (h5 k))).trans ?_
  exact (congrArg (Cert.BiConv.combine (W main_v10) (W main_v21) (W main_arg3) (W main_arg4) (W main_arg5) (W main_arg6)) h6).symm

/-- What point `t` writes back is block `t` of `result`. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zero_offsets]
  simp only [View.ld_unit_zero (S := S10000x64) zero_offsets, View.ld_unit_zero (S := S10000x1) zero_offsets, View.ld_unit_zero (S := S64x64) zero_offsets]
  funext j
  obtain ⟨p, q, rfl⟩ : ∃ (p : Fin 10000) (q : Fin 64), j = ix2 p q := ⟨j 0, j 1, eq_ix2 j⟩
  exact block_entry c (V m c) t p q

/-- An index of the output array is in point `t`'s block iff each coordinate is in the block's range on its axis. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- The ten row ranges tile the rows: row `r` lies in the block of point `r / 10000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- The output array after the run. -/
theorem final (c : Dev nD) : (dats m 0 c).arrAt 6 cfg0.N = result m c :=
  (dats m 0 c).arrAt_eq_of_cover 6 (result m c) (fun t _ => flushed_eq m c t) cover

/-- The kernel's run, read: the output array ends holding `result`, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.BiConv.Region

end
-- ==== Proof.RefValue.lean ====
/-
  The reference's result is `combine` of its two aggregated arrays.

  The reference forms each aggregated array (node features plus the features gathered along the edges, accumulated at the
  edges' other endpoint), scales its rows by a per-node column, multiplies by a 64 × 64 weight matrix, and adds the two
  directions. Read at node `r`, channel `c`: the row scaling reads the column at `(r, 0)`, a matrix product over one
  shared axis of extent 64 is `∑ₖ l r k · w k c`, and the final sum is entry-wise; that is `combine`, with the two
  accumulation stages left as they are.
-/
import proofs.«141852_j12094627906069_1_alg».proof.Proof.Gen.ReferenceIdeal.Read
import proofs.«141852_j12094627906069_1_alg».proof.Proof.Spec

noncomputable section

namespace Cert.BiConv.Reference

open Cert.ReferenceIdeal Cert.ReferenceIdeal.Gen Cert.ReferenceIdeal.Read Idealize.ShloMosaic Idealize.ShloMosaic.ValueIdx

/-- The last stage of the reference, entry by entry, is `combine` of its two accumulation stages, the two scale columns
    and the two weight matrices. -/
theorem result_eq_combine (x0 : (⟨S100000x64, .f32⟩ : BufTy).Contents (Elt Ideal)) (x1 x2 : (⟨S1200000, .i32⟩ : BufTy).Contents (Elt Ideal))
    (x3 x4 : (⟨S100000x1, .f32⟩ : BufTy).Contents (Elt Ideal)) (x5 x6 : (⟨S64x64, .f32⟩ : BufTy).Contents (Elt Ideal)) :
    val_main_v34 (F := Ideal) x0 x1 x2 x3 x4 x5 x6
      = Cert.BiConv.combine (val_main_v13 (F := Ideal) x0 x1 x2) (val_main_v30 (F := Ideal) x0 x1 x2) x3 x4 x5 x6 := by
  funext i
  rw [val_main_v34_apply, val_main_v16_apply, val_main_v33_apply]
  simp only [val_main_v15_apply, val_main_v32_apply, val_main_v14_apply, val_main_v31_apply]
  have el : ∀ k : Fin 64, lidx_main_v16 i k = ix2 (i 0) k := fun k => funext fun a => Fin.ext (by
    match a with
    | ⟨0, _⟩ => rfl
    | ⟨1, _⟩ => rfl)
  have er : ∀ k : Fin 64, ridx_main_v16 i k = ix2 k (i 1) := fun k => funext fun a => Fin.ext (by
    match a with
    | ⟨0, _⟩ => rfl
    | ⟨1, _⟩ => rfl)
  have en : ∀ k : Fin 64, idx_main_v14 (ix2 (i 0) k) = ix2 (i 0) (0 : Fin 1) := fun k => funext fun a => Fin.ext (by
    match a with
    | ⟨0, _⟩ => rfl
    | ⟨1, _⟩ => rfl)
  have el' : ∀ k : Fin 64, lidx_main_v33 i k = ix2 (i 0) k := fun k => funext fun a => Fin.ext (by
    match a with
    | ⟨0, _⟩ => rfl
    | ⟨1, _⟩ => rfl)
  have er' : ∀ k : Fin 64, ridx_main_v33 i k = ix2 k (i 1) := fun k => funext fun a => Fin.ext (by
    match a with
    | ⟨0, _⟩ => rfl
    | ⟨1, _⟩ => rfl)
  have en' : ∀ k : Fin 64, idx_main_v31 (ix2 (i 0) k) = ix2 (i 0) (0 : Fin 1) := fun k => funext fun a => Fin.ext (by
    match a with
    | ⟨0, _⟩ => rfl
    | ⟨1, _⟩ => rfl)
  simp only [el, er, el', er']
  unfold Cert.BiConv.combine
  refine congrArg₂ (· + ·) (Finset.sum_congr rfl fun k _ => ?_) (Finset.sum_congr rfl fun k _ => ?_)
  · exact congrArg₂ (· * ·) (congrArg₂ (· * ·) (congrArg x3 (en k)) rfl) rfl
  · exact congrArg₂ (· * ·) (congrArg₂ (· * ·) (congrArg x4 (en' k)) rfl) rfl

end Cert.BiConv.Reference

end
-- ==== Proof.lean ====
/-
  A two-direction graph convolution: the tiled kernel against its one-line reference, on the extended reals.

  Both programs take node features `x` ([100000, 64]), two edge-endpoint vectors, two per-node scale columns and two
  64 × 64 weight matrices, and return, at node `r` and channel `c`,

      ∑ₖ (n r · a r k) · wo k c  +  ∑ₖ (nt r · b r k) · wb k c                                  (`combine`, Proof/Spec.lean)

  where `a` (and `b`, with the edges reversed) is `x` plus, at each node, the features of its in-neighbours.

  • The reference accumulates the gathered features directly onto `x`, at endpoints it first wraps (`i < 0 ? i + N : i`);
    its last stage is `combine` of those two arrays (Proof/RefValue.lean).
  • The kernel's program accumulates them onto zeros, at the endpoints as given, and adds `x` (Proof/Prelude.lean); its
    tiled region then computes `combine` of what it is launched on, ten blocks of 10000 rows (Proof/Payload.lean for one
    stored entry, Proof/Region.lean for the whole array).
  • Accumulating onto `x` is accumulating onto zero and adding `x` (Proof/Spec.lean), and on the stated domain, where every
    endpoint is a node number, wrapping an endpoint changes nothing (Proof/Domain.lean, Proof/Spec.lean). Outside that
    domain the two differ: an endpoint in [-100000, -1] is wrapped to a node by the reference and dropped by the kernel.

  The narrower format the kernel rounds its matrix operands to is the identity on the extended reals, and no step needs
  an entry to be finite.
-/
import proofs.«141852_j12094627906069_1_alg».proof.Defs
import proofs.«141852_j12094627906069_1_alg».proof.Proof.Gen.Kernel
import proofs.«141852_j12094627906069_1_alg».proof.Proof.Gen.Kernel.Skeleton
import proofs.«141852_j12094627906069_1_alg».proof.Proof.Gen.Kernel.Launch
import proofs.«141852_j12094627906069_1_alg».proof.Proof.Gen.Kernel.Points
import proofs.«141852_j12094627906069_1_alg».proof.Proof.Gen.Kernel.Frame
import proofs.«141852_j12094627906069_1_alg».proof.Proof.Gen.KernelIdeal
import proofs.«141852_j12094627906069_1_alg».proof.Proof.Gen.KernelIdeal.Skeleton
import proofs.«141852_j12094627906069_1_alg».proof.Proof.Gen.KernelIdeal.Launch
import proofs.«141852_j12094627906069_1_alg».proof.Proof.Gen.KernelIdeal.Points
import proofs.«141852_j12094627906069_1_alg».proof.Proof.Gen.KernelIdeal.Frame
import proofs.«141852_j12094627906069_1_alg».proof.Proof.Gen.ReferenceIdeal
import proofs.«141852_j12094627906069_1_alg».proof.Proof.Gen.Pre_finite_inputs
import proofs.«141852_j12094627906069_1_alg».proof.Proof.Gen.KernelIdeal.Value
import proofs.«141852_j12094627906069_1_alg».proof.Proof.Gen.ReferenceIdeal.Run
import proofs.«141852_j12094627906069_1_alg».proof.Proof.Gen.ReferenceIdeal.Read
import proofs.«141852_j12094627906069_1_alg».proof.Proof.Spec
import proofs.«141852_j12094627906069_1_alg».proof.Proof.Domain
import proofs.«141852_j12094627906069_1_alg».proof.Proof.Prelude
import proofs.«141852_j12094627906069_1_alg».proof.Proof.Region
import proofs.«141852_j12094627906069_1_alg».proof.Proof.RefValue
import Idealize.ShloMosaic.Adequacy
import Idealize.ShloMosaic.Init

noncomputable section

namespace Cert.Proof

open Idealize.ShloMosaic Idealize.ShloMosaic.TcCoe Idealize.SL.Sem

/-- The reference's accumulation of the gathered features onto `x`, at wrapped endpoints, is the kernel's
    `aggregate` — onto zeros at the endpoints as given, plus `x` — when no "to" endpoint is negative. -/
theorem ref_agg_eq (x : FVec Ideal Cert.KernelIdeal.S100000x64 .f32) (from_ to_ : IVec Cert.KernelIdeal.S1200000 32)
    (hto : ∀ e, IntOp.cmpi .sge (to_ e) 0#32 = 1#1) :
    Host.scatterAdd Cert.ReferenceIdeal.scatter_S100000x64_S1200000x1_S1200000x64_1_0_0_1 x
        (broadcastInDim Cert.ReferenceIdeal.S1200000x1 ![0] Cert.ReferenceIdeal.Facts₀.bcast_S1200000_S1200000x1_0 (Cert.BiConv.Prelude.wrapped to_))
        (Host.gather Cert.ReferenceIdeal.gather_S100000x64_S1200000x1_S1200000x64_1_0_n_n_0_1_164 x
          (broadcastInDim Cert.ReferenceIdeal.S1200000x1 ![0] Cert.ReferenceIdeal.Facts₀.bcast_S1200000_S1200000x1_0 (Cert.BiConv.Prelude.wrapped from_)))
      = Cert.BiConv.Prelude.aggregate x from_ to_ := by
  have e : Cert.BiConv.Prelude.wrapped to_ = to_ := Cert.BiConv.wrap_of_nonneg to_ _ _ hto
  rw [e]
  exact (Cert.BiConv.scatterAdd_onto_zero_add _ _ x _ _).symm

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with `combine` of the same six arrays: the reference's two accumulated
    arrays are the kernel's two aggregated operands (each endpoint vector is the "to" side of one direction, and on the
    domain neither has a negative entry), and the other four are inputs. -/
theorem algebraic : Cert.algebraic_KernelIdeal_ReferenceIdeal := by
  intro m ρ m' ρ' hpre hagree
  refine ⟨fun c => Cert.BiConv.Region.result m c, Cert.BiConv.Region.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨hs, ht⟩ := Cert.BiConv.Domain.nonneg_of_pre _ _ _ _ _ _ _ (hpre c)
  rw [a0, a1, a2, a3, a4, a5, a6, Cert.ReferenceIdeal.Read.val_main_v34_eq, Cert.BiConv.Reference.result_eq_combine]
  exact Cert.BiConv.combine_congr
    ((ref_agg_eq _ _ _ ht).trans (Cert.BiConv.Prelude.agg_out_eq m c).symm)
    ((ref_agg_eq _ _ _ hs).trans (Cert.BiConv.Prelude.agg_back_eq m c).symm)
    (Cert.KernelIdeal.Gen.V_main_arg3 m c).symm (Cert.KernelIdeal.Gen.V_main_arg4 m c).symm
    (Cert.KernelIdeal.Gen.V_main_arg5 m c).symm (Cert.KernelIdeal.Gen.V_main_arg6 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
